-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16x1024x1024 : Shape := ⟨3, ![16, 1024, 1024]⟩
abbrev S16 : Shape := ⟨1, ![16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x1024 .f32) (main_arg1 : FVec F S16x1024x1024 .f32) (main_arg2 : IVec S16 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_c_2 : IVec S_ 32 := constantI S_ 32 0#32
  let main_v9 : IVec S16 32 := broadcastInDim S16 ![] bcast_S_S16 main_c_2
  let main_v10 : IVec S16 1 := cmpi .sge main_arg2 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v8 main_v11
  let main_c_4 : IVec S_ 32 := constantI S_ 32 16#32
  let main_v13 : IVec S16 32 := broadcastInDim S16 ![] bcast_S_S16 main_c_4
  let main_v14 : IVec S16 1 := cmpi .slt main_arg2 main_v13
  let main_c_5 : IVec S_ 1 := constantI S_ 1 1#1
  let main_v15 : IVec S_ 1 := (fun x v => Host.reduce IntOp.andi x v reducesTo_S16_S_d0 h_S_) main_v14 main_c_5
  fn_part1 (F := F) main_v12 main_v15
-- ==== Kernel.lean ====
abbrev S4096x1024 : Shape := ⟨2, ![4096, 1024]⟩
abbrev S16x1024x1024 : Shape := ⟨3, ![16, 1024, 1024]⟩
abbrev S16 : Shape := ⟨1, ![16]⟩
abbrev S65536x1024 : Shape := ⟨2, ![65536, 1024]⟩
abbrev S1x512x1024 : Shape := ⟨3, ![1, 512, 1024]⟩
abbrev S1 : Shape := ⟨1, ![1]⟩
abbrev S4096x512 : Shape := ⟨2, ![4096, 512]⟩
abbrev S512x1024 : Shape := ⟨2, ![512, 1024]⟩

abbrev nBuf : Space → Nat
  | .hbm => 5
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S16x1024x1024, .f32⟩
  | .hbm, ⟨2, _⟩ => ⟨S4096x1024, .bf16⟩
  | .hbm, ⟨3, _⟩ => ⟨S16x1024x1024, .bf16⟩
  | .hbm, ⟨4, _⟩ => ⟨S65536x1024, .f32⟩
  | .local _ .vmem, ⟨0, _⟩ => ⟨S4096x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S4096x512, .f32⟩
  | .local _ .vmem, ⟨4, _⟩ => ⟨S4096x512, .f32⟩
  | .local _ .smem, ⟨0, _⟩ => ⟨S16, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  numel1_S1 : S1.numel = 1
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S4096x512_S4096x512_0_0 : ∀ a, (![0, 0] : Fin 2 → Nat) a + S4096x512.size a ≤ S4096x512.size a
  h_S4096x512 : 0 < S4096x512.numel
  dot_S4096x1024_S512x1024_S4096x512_1_1_0_0_n_n_wf : DotDims.WF S4096x1024 S512x1024 S4096x512 [1] [1] [0] [0] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S4096x1024.size a
  hwx0_0 : ∀ i : grid0.Coords, EltTy.bits .bf16 = 32 ∨ (Rect.block (s := S4096x1024) S4096x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S65536x1024.size a
  hwx0_2 : ∀ i : grid0.Coords, EltTy.bits .f32 = 32 ∨ (Rect.block (s := S65536x1024) S4096x512.size (cc0_transform_2 i) (hinb0_2 i)).WholeWords (EltTy.packing .f32)

variable [Facts₀]

def dot_S4096x1024_S512x1024_S4096x512_1_1_0_0_n_n : DotDims S4096x1024 S512x1024 S4096x512 where
  lhsContracting := [1]
  rhsContracting := [1]
  lhsNonContracting := [0]
  rhsNonContracting := [0]
  lhsBatch := []
  rhsBatch := []
  wf := dot_S4096x1024_S512x1024_S4096x512_1_1_0_0_n_n_wf

abbrev spec0_0 : Pipeline.WinSpec sig grid0.rank :=
  Pipeline.WinSpec.ofSpec (Memref.whole main_v0) S4096x1024.size reads0_0 false true 1 stage0_0 sem0_0 nbuf0_0 hstage0_0

abbrev spec0_1 : Pipeline.WinSpec sig grid0.rank :=
  Pipeline.WinSpec.ofSpec (Memref.whole main_v1) S1x512x1024.size reads0_1 false false 2 stage0_1 sem0_1 nbuf0_1 hstage0_1

abbrev spec0_2 : Pipeline.WinSpec sig grid0.rank :=
  Pipeline.WinSpec.ofSpec (Memref.whole main_v2) S4096x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x1024.size a ≤ S16x1024x1024.size a), EltTy.bits .bf16 = 32 ∨ (Rect.block (s := S16x1024x1024) S1x512x1024.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4096x1024 : Shape := ⟨2, ![4096, 1024]⟩
abbrev S16x1024x1024 : Shape := ⟨3, ![16, 1024, 1024]⟩
abbrev S16 : Shape := ⟨1, ![16]⟩
abbrev S16x1024x4096 : Shape := ⟨3, ![16, 1024, 4096]⟩
abbrev S16x4096x1024 : Shape := ⟨3, ![16, 4096, 1024]⟩
abbrev S_ : Shape := ⟨0, ![]⟩
abbrev S16x1 : Shape := ⟨2, ![16, 1]⟩
abbrev S65536x1024 : Shape := ⟨2, ![65536, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024x1024, .f32⟩
  | .hbm, ⟨2, _⟩ => ⟨S16, .i32⟩
  | .hbm, ⟨3, _⟩ => ⟨S16x1024x4096, .f32⟩
  | .hbm, ⟨4, _⟩ => ⟨S16x4096x1024, .f32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x4096x1024, .f32⟩
  | .hbm, ⟨14, _⟩ => ⟨S65536x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S16x1024x4096_S16x4096x1024_0_2_1 : S16x1024x4096.Transposes [0, 2, 1] S16x4096x1024
  bcast_S_S16 : S_.BroadcastsInDim S16 (![] : Fin 0 → Fin S16.rank)
  bcast_S16_S16x1_0 : S16.BroadcastsInDim S16x1 (![0] : Fin 1 → Fin S16x1.rank)
  shapeCasts_S16x4096x1024_S65536x1024 : S16x4096x1024.ShapeCasts S65536x1024
  dot_S16x1024x1024_S4096x1024_S16x1024x4096_2_1_01_0_n_n_wf : DotDims.WF S16x1024x1024 S4096x1024 S16x1024x4096 [2] [1] [0, 1] [0] [] []
  gather_S16x4096x1024_S16x1_S16x4096x1024_12_0_n_n_0_1_140961024_wf : GatherDims.WF S16x4096x1024 S16x1 S16x4096x1024 [1, 2] [0] [] [0] [] 1 ![1, 4096, 1024]

variable [Facts₀]

def dot_S16x1024x1024_S4096x1024_S16x1024x4096_2_1_01_0_n_n : DotDims S16x1024x1024 S4096x1024 S16x1024x4096 where
  lhsContracting := [2]
  rhsContracting := [1]
  lhsNonContracting := [0, 1]
  rhsNonContracting := [0]
  lhsBatch := []
  rhsBatch := []
  wf := dot_S16x1024x1024_S4096x1024_S16x1024x4096_2_1_01_0_n_n_wf
def gather_S16x4096x1024_S16x1_S16x4096x1024_12_0_n_n_0_1_140961024 : GatherDims S16x4096x1024 S16x1 S16x4096x1024 where
  offsetDims := [1, 2]
  collapsedSliceDims := [0]
  operandBatchingDims := []
  startIndicesBatchingDims := []
  startIndexMap := [0]
  indexVectorDim := 1
  sliceSizes := ![1, 4096, 1024]
  wf := gather_S16x4096x1024_S16x1_S16x4096x1024_12_0_n_n_0_1_140961024_wf

class Facts : Prop extends Facts₀ where

variable [Facts]
-- ==== Proof.IndexRange.lean ====
/-
  The precondition read back at the integer input. Beside the finiteness of the two float inputs the precondition
  says, of the sixteen plane indices, `all (indices ≥ 0)` and `all (indices < 16)`, both signed. A signed word in
  [0, 16) is, read unsigned, a natural number below 16: that is the form in which the kernel's block index map and the
  reference's gather consume the word.
-/
import proofs.«428735_j67001489817758_1_alg».proof.Pre_finite_inputs
import Idealize.ShloMosaic.Lib.ReduceAll
import Idealize.ShloMosaic.Lib.StableHlo.Predicate

noncomputable section

namespace Cert.IndexRange

open Idealize.ShloMosaic Cert.Pre_finite_inputs

variable {F : FTy → Type} [FloatOps F]

/-- The scalar shape has one index. -/
instance : Subsingleton S_.Idx := ⟨fun a b => funext fun d => d.elim0⟩

/-- A 32-bit word that is signed-nonnegative and signed-below 16 has unsigned value below 16. -/
theorem toNat_lt_16 (w : BitVec 32) (h0 : IntOp.cmpi .sge w 0#32 = 1#1) (h16 : IntOp.cmpi .slt w 16#32 = 1#1) :
    w.toNat < 16 := by
  unfold IntOp.cmpi at h0 h16
  rw [StableHlo.Predicate.ofBool_eq_one_iff] at h0 h16
  simp only [BitVec.slt, BitVec.sle, decide_eq_true_eq, BitVec.toInt_eq_toNat_cond] at h0 h16
  have := w.isLt
  simp at h0 h16
  split at h16 <;> split at h0 <;> omega

/-- THE PRECONDITION DECODED: every plane index is, unsigned, below 16. -/
theorem idx_lt [Cert.Pre_finite_inputs.Facts] (x : FVec F S4096x1024 .f32) (T : FVec F S16x1024x1024 .f32) (idx : IVec S16 32)
    (h : Cert.Pre_finite_inputs.fn (F := F) x T idx = fun _ => 1#1) (p : S16.Idx) : (idx p).toNat < 16 := by
  have e := congrFun h (fun d => d.elim0)
  unfold Cert.Pre_finite_inputs.fn Cert.Pre_finite_inputs.fn_part1 at e
  dsimp only at e
  -- the four conjuncts: two finiteness reductions, then the two range reductions over the sixteen indices
  have e1 : IntOp.andi _ _ = 1#1 := e
  obtain ⟨e2, hlt⟩ := IntOp.andi_eq_one.1 e1
  have e3 : IntOp.andi _ _ = 1#1 := e2
  obtain ⟨-, hge⟩ := IntOp.andi_eq_one.1 e3
  have g0 := Host.reduce_andi_all _ _ _ _ _ hge p
  have g16 := Host.reduce_andi_all _ _ _ _ _ hlt p
  exact toNat_lt_16 (idx p) g0 g16

end Cert.IndexRange

end
-- ==== Proof.OkKernel.lean ====
/-
  The pipeline's side condition on the prefetched table, from the precondition. Window 1 stages, at grid point (p, j),
  the block [1, 512, 1024] of the sixteen-plane operand at block index (indices[p], j, 0), the table word read unsigned.
  That block lies inside the [16, 1024, 1024] array exactly when indices[p] < 16 (j < 2 holds of every grid point, and the
  last axis is taken whole); the precondition gives indices[p] < 16. The transfer's ends fall on whole 32-bit words
  whatever the block index, the block's rows being 1024 sixteen-bit entries long.
-/
import proofs.«428735_j67001489817758_1_alg».proof.Defs
import proofs.«428735_j67001489817758_1_alg».proof.Proof.Gen.Kernel.Frame
import proofs.«428735_j67001489817758_1_alg».proof.Proof.IndexRange

set_option maxRecDepth 16384

noncomputable section

namespace Cert.Kernel.OkOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The side condition from the range of the table's words: every word below 16 puts every staged plane inside the operand. -/
theorem ok_of_range (h : ∀ x : S16.Idx, (m (((0 : Dev nD) : Thread nD τ).loc main_arg2) x).toNat < 16) : Ok m := by
  intro i
  have hl : ∀ x, (tbl m 0 x).toNat < 16 := fun x => by
    show (V m (0 : Dev nD) main_arg2 x).toNat < 16
    rw [V_main_arg2]; exact h x
  obtain ⟨w, hw, e⟩ : ∃ w : BitVec 32, w.toNat < 16 ∧
      cc0_transform_1 k0_off1_inb numel1_S1 (tbl m) i = ![w.toNat, (BitVec.ofNat 32 (i 1).val).toNat, (0#32).toNat] :=
    ⟨_, hl _, rfl⟩
  refine ⟨fun a => ?_, .inr (Affine.block_words_dvd (of_decide_eq_true rfl) (by decide))⟩
  rw [e]
  have hj : (i 1).val < 2 := (i 1).isLt
  fin_cases a <;> simp [S1x512x1024, S16x1024x1024] <;> omega

/-- The side condition under the certificate's precondition. -/
theorem ok_of_pre [Cert.Pre_finite_inputs.Facts] (m : (ℓ : Loc nD τ sig) → Buf (Elt Bits) ℓ) (h : Cert.Pre_Kernel m) : Ok m :=
  ok_of_range m fun x => Cert.IndexRange.idx_lt _ _ _ (h 0) x

end Cert.Kernel.OkOfPre

end
-- ==== Proof.OkKernelIdeal.lean ====
/-
  The pipeline's side condition on the prefetched table, from the precondition. Window 1 stages, at grid point (p, j),
  the block [1, 512, 1024] of the sixteen-plane operand at block index (indices[p], j, 0), the table word read unsigned.
  That block lies inside the [16, 1024, 1024] array exactly when indices[p] < 16 (j < 2 holds of every grid point, and the
  last axis is taken whole); the precondition gives indices[p] < 16. The transfer's ends fall on whole 32-bit words
  whatever the block index, the block's rows being 1024 sixteen-bit entries long.
-/
import proofs.«428735_j67001489817758_1_alg».proof.Defs
import proofs.«428735_j67001489817758_1_alg».proof.Proof.Gen.KernelIdeal.Frame
import proofs.«428735_j67001489817758_1_alg».proof.Proof.IndexRange

set_option maxRecDepth 16384

noncomputable section

namespace Cert.KernelIdeal.OkOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The side condition from the range of the table's words: every word below 16 puts every staged plane inside the operand. -/
theorem ok_of_range (h : ∀ x : S16.Idx, (m (((0 : Dev nD) : Thread nD τ).loc main_arg2) x).toNat < 16) : Ok m := by
  intro i
  have hl : ∀ x, (tbl m 0 x).toNat < 16 := fun x => by
    show (V m (0 : Dev nD) main_arg2 x).toNat < 16
    rw [V_main_arg2]; exact h x
  obtain ⟨w, hw, e⟩ : ∃ w : BitVec 32, w.toNat < 16 ∧
      cc0_transform_1 k0_off1_inb numel1_S1 (tbl m) i = ![w.toNat, (BitVec.ofNat 32 (i 1).val).toNat, (0#32).toNat] :=
    ⟨_, hl _, rfl⟩
  refine ⟨fun a => ?_, .inr (Affine.block_words_dvd (of_decide_eq_true rfl) (by decide))⟩
  rw [e]
  have hj : (i 1).val < 2 := (i 1).isLt
  fin_cases a <;> simp [S1x512x1024, S16x1024x1024] <;> omega

/-- The side condition under the certificate's precondition. -/
theorem ok_of_pre [Cert.Pre_finite_inputs.Facts] (m : (ℓ : Loc nD τ sig) → Buf (Elt Ideal) ℓ) (h : Cert.Pre_KernelIdeal m) : Ok m :=
  ok_of_range m fun x => Cert.IndexRange.idx_lt _ _ _ (h 0) x

end Cert.KernelIdeal.OkOfPre

end
-- ==== Proof.PlaneGather.lean ====
/-
  The reference's gather read at an index. `rval[indices]` gathers whole [4096, 1024] planes of a [16, 4096, 1024] array:
  the start indices are a [16, 1] array, one word per result plane; operand axis 0 is collapsed and indexed, axes 1 and 2
  are offset axes taken whole. So result entry (p, b, o) is operand entry (s, b, o), where s is the p-th start index read
  as a signed integer and clamped into [0, 15] (a slice of extent 1 must fit the axis of extent 16). Each coordinate of the
  operand index is, by definition, start + batching coordinate + offset coordinate; there is no batching axis, the start
  is nonzero only on axis 0, and the offset coordinate is zero exactly on axis 0.
-/
import proofs.«428735_j67001489817758_1_alg».proof.ReferenceIdeal
import Idealize.ShloMosaic.Lib.ValueIdx

noncomputable section

namespace Cert.PlaneGather

open Idealize.ShloMosaic Cert.ReferenceIdeal

variable [Cert.ReferenceIdeal.Facts₀]

/-- The gather's dimension numbers, under a short name. -/
abbrev GD : GatherDims S16x4096x1024 S16x1 S16x4096x1024 := gather_S16x4096x1024_S16x1_S16x4096x1024_12_0_n_n_0_1_140961024

/-- Where result index i finds its start index: row (i 0) of the [16, 1] start-index array. -/
abbrev startPos (i : S16x4096x1024.Idx) : S16x1.Idx := fun a => match a with
  | ⟨0, _⟩ => ⟨(i 0).val, (i 0).isLt⟩
  | ⟨1, _⟩ => ⟨0, Nat.one_pos⟩

/-- Axes 1 and 2 of the operand are kept (neither collapsed nor batching); axis 0 is not. -/
theorem kept1 : (1 : Fin S16x4096x1024.rank) ∈ GD.sKept := by
  show (1 : Fin S16x4096x1024.rank) ∈ S16x4096x1024.kept ([0] ++ []); decide
theorem kept2 : (2 : Fin S16x4096x1024.rank) ∈ GD.sKept := by
  show (2 : Fin S16x4096x1024.rank) ∈ S16x4096x1024.kept ([0] ++ []); decide
theorem kept0 : (0 : Fin S16x4096x1024.rank) ∉ GD.sKept := by
  show (0 : Fin S16x4096x1024.rank) ∉ S16x4096x1024.kept ([0] ++ []); decide

/-- The offset coordinate: the result's own coordinate on the kept axes, zero on the collapsed one. -/
theorem off0 (i : S16x4096x1024.Idx) : GD.offCoord i 0 = 0 := GD.offCoord_eq_zero i 0 kept0
theorem off1 (i : S16x4096x1024.Idx) : GD.offCoord i 1 = (i 1).val := by
  unfold GatherDims.offCoord
  rw [dif_pos kept1]
  rfl
theorem off2 (i : S16x4096x1024.Idx) : GD.offCoord i 2 = (i 2).val := by
  unfold GatherDims.offCoord
  rw [dif_pos kept2]
  rfl

/-- No batching axis: the batching coordinate is zero everywhere. -/
theorem batch_zero (i : S16x4096x1024.Idx) (a : Fin S16x4096x1024.rank) : GD.batchCoord i a = 0 :=
  GD.batchCoord_eq_zero i a (by show a ∉ ([] : List (Fin S16x4096x1024.rank)); exact List.not_mem_nil)

/-- The one component of the start index is read at row (i 0) of the start-index array. -/
theorem siIdx_eq (i : S16x4096x1024.Idx) (c) : GD.siIdx i c = startPos i := by
  funext b
  match b with
  | ⟨0, _⟩ => rfl
  | ⟨1, _⟩ =>
    apply Fin.ext
    have := (GD.siIdx i c ⟨1, by decide⟩).isLt
    show _ = 0
    have e : S16x1.size ⟨1, by decide⟩ = 1 := rfl
    omega

theorem map0 : (0 : Fin S16x4096x1024.rank) ∈ GD.startIndexMap := by
  show (0 : Fin S16x4096x1024.rank) ∈ ([0] : List (Fin S16x4096x1024.rank)); decide

/-- The start on axis 0: the start index read signed, clamped to the last plane. -/
theorem start0 {w : Nat} (i : S16x4096x1024.Idx) (idx : IVec S16x1 w) :
    GD.start i idx 0 = min (idx (startPos i)).toInt.toNat 15 := by
  unfold GatherDims.start
  rw [dif_pos map0, siIdx_eq]
  rfl

/-- The start on the other axes is zero: the start index map names axis 0 only. -/
theorem start_ne0 {w : Nat} (i : S16x4096x1024.Idx) (idx : IVec S16x1 w) (a : Fin S16x4096x1024.rank) (ha : a ≠ 0) :
    GD.start i idx a = 0 := by
  unfold GatherDims.start
  rw [dif_neg]
  show a ∉ ([0] : List (Fin S16x4096x1024.rank))
  simpa using ha

/-- The plane result plane (i 0) is taken from. -/
def srcPlane {w : Nat} (idx : IVec S16x1 w) (i : S16x4096x1024.Idx) : Fin 16 :=
  ⟨min (idx (startPos i)).toInt.toNat 15, by omega⟩

/-- THE GATHER AT AN INDEX: entry (p, b, o) of the result is entry (srcPlane, b, o) of the operand. -/
theorem gather_apply {α : Type} {w : Nat} (x : S16x4096x1024.Idx → α) (idx : IVec S16x1 w) (i : S16x4096x1024.Idx) :
    Host.gather GD x idx i = x (ValueIdx.ix3 (srcPlane idx i) ⟨(i 1).val, (i 1).isLt⟩ ⟨(i 2).val, (i 2).isLt⟩) := by
  unfold Host.gather
  congr 1
  funext a
  apply Fin.ext
  match a with
  | ⟨0, _⟩ =>
    show GD.start i idx 0 + GD.batchCoord i 0 + GD.offCoord i 0 = min (idx (startPos i)).toInt.toNat 15
    rw [start0, batch_zero, off0]; omega
  | ⟨1, _⟩ =>
    show GD.start i idx 1 + GD.batchCoord i 1 + GD.offCoord i 1 = (i 1).val
    rw [start_ne0 i idx 1 (by decide), batch_zero, off1]; omega
  | ⟨2, _⟩ =>
    show GD.start i idx 2 + GD.batchCoord i 2 + GD.offCoord i 2 = (i 2).val
    rw [start_ne0 i idx 2 (by decide), batch_zero, off2]; omega

end Cert.PlaneGather

end
-- ==== Proof.Spec.lean ====
/-
  The result both programs compute, as one function of the three inputs over the extended reals.
  The [65536, 1024] result is sixteen groups of 4096 rows. Row r belongs to group p = r / 4096 and is row b = r % 4096 of
  the batch; its entry in column o is the inner product of batch row b with row o of ONE of the sixteen [1024, 1024]
  planes, the plane that the p-th index word names:
      G x T idx (r, o) = ∑ d, x (b, d) · T (plane p, o, d).
  The index word is read unsigned and capped at the last plane, so that G is total; under the precondition every word is
  below 16 and the cap never binds.
-/
import Idealize.ShloMosaic.PureOps.Ideal
import Idealize.ShloMosaic.Lib.ValueIdx
import Idealize.ShloMosaic.Lib.ValueIdxRank1

noncomputable section

namespace Cert.Spec

open Idealize.ShloMosaic Idealize.ShloMosaic.ValueIdx

/-- The group of result row r: which of the sixteen 4096-row bands it lies in. -/
def grp (i : (⟨2, ![65536, 1024]⟩ : Shape).Idx) : Fin 16 := ⟨(i 0).val / 4096, by have := idx2_lt0 i; omega⟩

/-- The batch row of result row r: its position inside its band. -/
def brow (i : (⟨2, ![65536, 1024]⟩ : Shape).Idx) : Fin 4096 := ⟨(i 0).val % 4096, Nat.mod_lt _ (by decide)⟩

/-- The column of a result entry. -/
def col (i : (⟨2, ![65536, 1024]⟩ : Shape).Idx) : Fin 1024 := ⟨(i 1).val, idx2_lt1 i⟩

/-- The plane group p reads: the p-th index word, unsigned, capped at the last plane. -/
def plane (idx : (⟨1, ![16]⟩ : Shape).Idx → BitVec 32) (p : Fin 16) : Fin 16 :=
  ⟨min (idx (ix1 p)).toNat 15, by omega⟩

/-- THE RESULT: entry (r, o) is the inner product of batch row r % 4096 with row o of the plane that group r / 4096 names. -/
def G (x : (⟨2, ![4096, 1024]⟩ : Shape).Idx → EReal) (T : (⟨3, ![16, 1024, 1024]⟩ : Shape).Idx → EReal)
    (idx : (⟨1, ![16]⟩ : Shape).Idx → BitVec 32) : (⟨2, ![65536, 1024]⟩ : Shape).Idx → EReal :=
  fun i => ∑ d : Fin 1024, x (ix2 (brow i) d) * T (ix3 (plane idx (grp i)) (col i) d)

end Cert.Spec

end
-- ==== Proof.RefValue.lean ====
/-
  The reference computes the result function. Its program: the batched product T · xᵀ (entry (p, o, b) is
  ∑ d, T (p, o, d) · x (b, d)), its last two axes swapped (entry (p, b, o)), the sixteen index words normalised the way
  negative array indices are (a negative word gets 16 added), the planes gathered by those words (clamped into range),
  and the [16, 4096, 1024] array read as [65536, 1024] (row r is row r % 4096 of plane r / 4096).
  Under the precondition each word is in [0, 16): it is not negative, so normalising leaves it alone, and the clamp does
  not bind. Entry (r, o) is then ∑ d, T (w, o, d) · x (r % 4096, d) with w the word of group r / 4096, which is
  `Spec.G` at (r, o) with the two factors of each product exchanged.
-/
import proofs.«428735_j67001489817758_1_alg».proof.Proof.Gen.ReferenceIdeal.Read
import proofs.«428735_j67001489817758_1_alg».proof.Proof.PlaneGather
import proofs.«428735_j67001489817758_1_alg».proof.Proof.Spec
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx

/-- A word below 16 is not negative as a signed integer, so the normalisation of negative indices selects the word
    itself; and read signed it is its unsigned value. -/
theorem wrap_word (w : BitVec 32) (hw : w.toNat < 16) :
    (Scalar.select (IntOp.cmpi .slt w 0#32) (IntOp.addi w 16#32) w).toInt.toNat = w.toNat := by
  have hw31 : w.toNat < 2 ^ 31 := by omega
  have h0 : IntOp.cmpi .slt w 0#32 = 0#1 :=
    eq_zero_of_ne_one fun h => by
      have := (StableHlo.Predicate.slt_iff_toNat hw31 (by decide)).1 h
      simp at this
  rw [h0, select_zero, StableHlo.Predicate.toInt_eq_toNat_of_lt hw31]
  exact Int.toNat_natCast _

/-- THE PLANE THE GATHER TAKES for result plane p is, under the range hypothesis, the plane `Spec.plane` names. -/
theorem srcPlane_eq (x2 : IVec S16 32) (hr : ∀ q : S16.Idx, (x2 q).toNat < 16) (j : S16x4096x1024.Idx) :
    Cert.PlaneGather.srcPlane (val_main_v7 (F := Ideal) x2) j = Cert.Spec.plane x2 ⟨(j 0).val, (j 0).isLt⟩ := by
  apply Fin.ext
  show min (val_main_v7 (F := Ideal) x2 (Cert.PlaneGather.startPos j)).toInt.toNat 15 = min (x2 (ix1 (⟨(j 0).val, (j 0).isLt⟩ : Fin 16))).toNat 15
  rw [val_main_v7_apply, val_main_v6_apply, val_main_v3_apply, val_main_v5_apply, val_main_v2_apply, val_main_v4_apply,
    val_main_c_apply, val_main_c_0_apply]
  have e : idx_main_v7 (Cert.PlaneGather.startPos j) = ix1 (⟨(j 0).val, (j 0).isLt⟩ : Fin 16) := funext fun a => by
    match a with | ⟨0, _⟩ => rfl
  rw [e, wrap_word _ (hr _)]

/-- THE REFERENCE IS G. -/
theorem ref_eq (x0 : (⟨S4096x1024, .f32⟩ : BufTy).Contents (Elt Ideal)) (x1 : (⟨S16x1024x1024, .f32⟩ : BufTy).Contents (Elt Ideal))
    (x2 : (⟨S16, .i32⟩ : BufTy).Contents (Elt Ideal)) (hr : ∀ q : S16.Idx, (x2 q).toNat < 16) :
    val_main_v9 (F := Ideal) x0 x1 x2 = Cert.Spec.G x0 x1 x2 := by
  funext i
  rw [val_main_v9_apply]
  unfold val_main_v8
  rw [Cert.PlaneGather.gather_apply, val_main_v1_apply, val_main_v0_apply, srcPlane_eq x2 hr]
  unfold Cert.Spec.G
  refine Finset.sum_congr rfl fun d _ => ?_
  rw [mul_comm]
  have h0 : (i 0).val < 65536 := (i 0).isLt
  have h1 : (i 1).val < 1024 := (i 1).isLt
  congr 2
  · funext a; apply Fin.ext
    match a with
    | ⟨0, _⟩ => show ((i 0).val * 1024 + (i 1).val) / 1024 % 4096 = (i 0).val % 4096; omega
    | ⟨1, _⟩ => rfl
  · funext a; apply Fin.ext
    match a with
    | ⟨0, _⟩ =>
      show min (x2 (ix1 ⟨((i 0).val * 1024 + (i 1).val) / 4194304, _⟩)).toNat 15 = min (x2 (ix1 ⟨(i 0).val / 4096, _⟩)).toNat 15
      have : ((i 0).val * 1024 + (i 1).val) / 4194304 = (i 0).val / 4096 := by omega
      simp only [this]
    | ⟨1, _⟩ => show ((i 0).val * 1024 + (i 1).val) % 1024 = (i 1).val; omega
    | ⟨2, _⟩ => rfl

end Cert.ReferenceIdeal.RefValue

end
-- ==== Proof.KernelBody.lean ====
/-
  What one grid point of the kernel computes. The body loads the whole batch block x0 [4096, 1024] and one half-plane
  x1 [1, 512, 1024], and stores, over its whole [4096, 512] output block, the product x0 · x1ᵀ contracted over the last
  axis of both, accumulated into zero. Over the extended reals that entry (b, o) is ∑ d, x0 (b, d) · x1 (0, o, d).
  When x0 is the batch and x1 is rows 512 j … 512 j + 511 of the plane that group p names, this is entry
  (4096 p + b, 512 j + o) of the result function `Spec.G`.
-/
import proofs.«428735_j67001489817758_1_alg».proof.Proof.Gen.KernelIdeal.Frame
import proofs.«428735_j67001489817758_1_alg».proof.Proof.Spec
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem

namespace Cert.KernelIdeal.Body

open Cert.KernelIdeal Cert.KernelIdeal.Gen Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

section AnyInstance

variable {F : FTy → Type} [FloatOps F]

/-- The body's one store covers its output block, so the block ends holding the stored value: the product of the two
    loaded blocks (each load reads its whole staging buffer). -/
theorem out_eq (c : Dev nD) (i : grid0.Coords) (a3 : Memref sig .tc .vmem S4096x1024 .bf16) (h3 : a3.IsWhole)
    (a4 : Memref sig .tc .vmem S1x512x1024 .bf16) (h4 : a4.IsWhole) (a5 : Memref sig .tc .vmem S4096x512 .f32) (h5 : a5.IsWhole)
    (x0 : Vec F S4096x1024 .bf16) (x1 : Vec F S1x512x1024 .bf16) (xt0 : TbBuf0 (F := F) c tbM0_0) :
    out0_A_2 c i a3 h3 a4 h4 a5 h5 x0 x1 xt0 = k0_pay1 x0 x1 := by
  unfold out0_A_2
  rw [View.read_writes_eq_canon _ _ _ (cover0_A_2 c i a3 h3 a4 h4 a5 h5 x0 x1 xt0)]
  unfold kernelRun0_A
  dsimp only
  sl_unfold_words
  rw [View.canon_unit_zero hz2]
  simp only [View.readAt_eq_ld, h3.read_unread, h4.read_unread, View.ld_unit_zero (S := S4096x1024) hz2,
    View.ld_unit_zero (S := S1x512x1024) hz3]

end AnyInstance

/-! ## The product at an index, over the extended reals -/

/-- The contraction's operand indices: the left operand is read at (row of the result, k), -/
theorem lhs_0 (i : S4096x512.Idx) (q : dot_S4096x1024_S512x1024_S4096x512_1_1_0_0_n_n.contr.Idx) :
    (dot_S4096x1024_S512x1024_S4096x512_1_1_0_0_n_n.lhsIdx i q 0).val = (i 0).val := by
  unfold DotDims.lhsIdx
  rw [dif_neg (show ¬(0 : Fin S4096x1024.rank) ∈ dot_S4096x1024_S512x1024_S4096x512_1_1_0_0_n_n.lhsBatch by decide), dif_pos (show (0 : Fin S4096x1024.rank) ∈ dot_S4096x1024_S512x1024_S4096x512_1_1_0_0_n_n.lhsNonContracting by decide)]
  rfl
theorem lhs_1 (i : S4096x512.Idx) (q : dot_S4096x1024_S512x1024_S4096x512_1_1_0_0_n_n.contr.Idx) :
    (dot_S4096x1024_S512x1024_S4096x512_1_1_0_0_n_n.lhsIdx i q 1).val = (q ⟨0, by decide⟩).val :=
  dot_S4096x1024_S512x1024_S4096x512_1_1_0_0_n_n.lhsIdx_val_of_single rfl i q
/-- the right operand at (column of the result, k). -/
theorem rhs_0 (i : S4096x512.Idx) (q : dot_S4096x1024_S512x1024_S4096x512_1_1_0_0_n_n.contr.Idx) :
    (dot_S4096x1024_S512x1024_S4096x512_1_1_0_0_n_n.rhsIdx i q 0).val = (i 1).val := by
  unfold DotDims.rhsIdx
  rw [dif_neg (show ¬(0 : Fin S512x1024.rank) ∈ dot_S4096x1024_S512x1024_S4096x512_1_1_0_0_n_n.rhsBatch by decide), dif_pos (show (0 : Fin S512x1024.rank) ∈ dot_S4096x1024_S512x1024_S4096x512_1_1_0_0_n_n.rhsNonContracting by decide)]
  rfl
theorem rhs_1 (i : S4096x512.Idx) (q : dot_S4096x1024_S512x1024_S4096x512_1_1_0_0_n_n.contr.Idx) :
    (dot_S4096x1024_S512x1024_S4096x512_1_1_0_0_n_n.rhsIdx i q 1).val = (q ⟨0, by decide⟩).val :=
  dot_S4096x1024_S512x1024_S4096x512_1_1_0_0_n_n.rhsIdx_val_of_single rfl i q

/-- The half-plane with its unit leading axis dropped reads the same entries. -/
theorem halfplane_apply (x1 : Vec Ideal S1x512x1024 .bf16) (o : Fin 512) (d : Fin 1024) :
    shapeCast S512x1024 x1 shapeCasts_S1x512x1024_S512x1024 (ix2 o d) = x1 (ix3 (0 : Fin 1) o d) :=
  shapeCast_apply x1 shapeCasts_S1x512x1024_S512x1024 (ix2 o d) (ix3 (0 : Fin 1) o d)
    (by rewrite [Shape.rowMajor_val_three, Shape.rowMajor_val_two]
        show ((0 : Fin 1).val * 512 + o.val) * 1024 + d.val = o.val * 1024 + d.val
        simp)

/-- THE BODY'S VALUE at (b, o): the inner product of row b of the batch block with row o of the half-plane. -/
theorem pay_apply (x0 : Vec Ideal S4096x1024 .bf16) (x1 : Vec Ideal S1x512x1024 .bf16) (b : Fin 4096) (o : Fin 512) :
    k0_pay1 (F := Ideal) x0 x1 (ix2 b o) = ∑ d : Fin 1024, x0 (ix2 b d) * x1 (ix3 (0 : Fin 1) o d) := by
  unfold k0_pay1
  simp only [matmul]
  rw [Ideal.matmul_constant_zero_apply, ← Equiv.sum_comp (contrEquiv1 dot_S4096x1024_S512x1024_S4096x512_1_1_0_0_n_n 1024 rfl rfl).symm]
  refine Finset.sum_congr rfl fun k _ => ?_
  have hk := contrEquiv1_symm_val dot_S4096x1024_S512x1024_S4096x512_1_1_0_0_n_n 1024 rfl rfl k
  have el : dot_S4096x1024_S512x1024_S4096x512_1_1_0_0_n_n.lhsIdx (ix2 b o) ((contrEquiv1 dot_S4096x1024_S512x1024_S4096x512_1_1_0_0_n_n 1024 rfl rfl).symm k) = ix2 b k := funext fun a => Fin.ext (by
    match a with
    | ⟨0, _⟩ => exact lhs_0 _ _
    | ⟨1, _⟩ => exact (lhs_1 _ _).trans hk)
  have er : dot_S4096x1024_S512x1024_S4096x512_1_1_0_0_n_n.rhsIdx (ix2 b o) ((contrEquiv1 dot_S4096x1024_S512x1024_S4096x512_1_1_0_0_n_n 1024 rfl rfl).symm k) = ix2 o k := funext fun a => Fin.ext (by
    match a with
    | ⟨0, _⟩ => exact rhs_0 _ _
    | ⟨1, _⟩ => exact (rhs_1 _ _).trans hk)
  rw [el, er, shapeCast_self, halfplane_apply]

end Cert.KernelIdeal.Body

end
-- ==== Proof.KernelBlock.lean ====
/-
  One output block against the result function. At grid point (p, j) the body's batch block is the whole batch x and its
  half-plane block is rows 512 j … 512 j + 511 of plane w = indices[p] of T (hypotheses h0, h1 below, over any blocks
  that read so). Entry (b, o) of the block the body stores is ∑ d, x (b, d) · T (w, 512 j + o, d); the output window
  places it at entry (4096 p + b, 512 j + o) of the result, whose group is p, batch row b and column 512 j + o: the same
  sum, `Spec.G` there.
-/
import proofs.«428735_j67001489817758_1_alg».proof.Proof.KernelBody

noncomputable section

open Idealize.ShloMosaic Idealize.ShloMosaic.TcCoe Idealize.SL.Sem

namespace Cert.KernelIdeal.Body

open Cert.KernelIdeal Cert.KernelIdeal.Gen Idealize.ShloMosaic.ValueIdx

/-- THE BLOCK OF POINT (p, j) IS G's: the body's value at y is G at the array index z the window puts y at. -/
theorem block_value (x : S4096x1024.Idx → EReal) (T : S16x1024x1024.Idx → EReal) (idx : S16.Idx → BitVec 32)
    (x0 : Vec Ideal S4096x1024 .bf16) (x1 : Vec Ideal S1x512x1024 .bf16) (p : Fin 16) (j : Fin 2)
    (hidx : (idx (ix1 p)).toNat < 16)
    (h0 : ∀ (b : Fin 4096) (d : Fin 1024), x0 (ix2 b d) = x (ix2 b d))
    (h1 : ∀ (o : Fin 512) (d : Fin 1024),
      x1 (ix3 (0 : Fin 1) o d) = T (ix3 (⟨(idx (ix1 p)).toNat, hidx⟩ : Fin 16) (⟨j.val * 512 + o.val, by omega⟩ : Fin 1024) d))
    (y : S4096x512.Idx) (z : S65536x1024.Idx)
    (hz0 : (z 0).val = p.val * 4096 + (y 0).val) (hz1 : (z 1).val = j.val * 512 + (y 1).val) :
    k0_pay1 (F := Ideal) x0 x1 y = Cert.Spec.G x T idx z := by
  have hy0 : (y 0).val < 4096 := (y 0).isLt
  have hy1 : (y 1).val < 512 := (y 1).isLt
  have ey : y = ix2 (⟨(y 0).val, hy0⟩ : Fin 4096) (⟨(y 1).val, hy1⟩ : Fin 512) := by
    funext a; match a with | ⟨0, _⟩ => rfl | ⟨1, _⟩ => rfl
  rw [ey, pay_apply]
  unfold Cert.Spec.G
  refine Finset.sum_congr rfl fun d _ => ?_
  rw [h0, h1]
  have eb : Cert.Spec.brow z = (⟨(y 0).val, hy0⟩ : Fin 4096) := Fin.ext (by
    show (z 0).val % 4096 = (y 0).val
    rw [hz0]; omega)
  have eg : Cert.Spec.grp z = p := Fin.ext (by
    show (z 0).val / 4096 = p.val
    rw [hz0]; omega)
  have ec : Cert.Spec.col z = (⟨j.val * 512 + (y 1).val, by omega⟩ : Fin 1024) := Fin.ext (by
    show (z 1).val = j.val * 512 + (y 1).val
    exact hz1)
  have ep : Cert.Spec.plane idx p = (⟨(idx (ix1 p)).toNat, hidx⟩ : Fin 16) := Fin.ext (by
    show min (idx (ix1 p)).toNat 15 = (idx (ix1 p)).toNat
    omega)
  rw [eb, eg, ec, ep]

end Cert.KernelIdeal.Body

end
-- ==== Proof.KernelValue.lean ====
/-
  The kernel's result array. The launch runs the body at the 32 points (p, j) of a 16 × 2 grid. Before it, the host
  narrows x and T to a sixteen-bit format, which over the extended reals changes nothing. At point (p, j):
    the batch window stages the whole [4096, 1024] batch (block index (0, 0));
    the plane window stages block (indices[p], j, 0) of T in blocks [1, 512, 1024]: rows 512 j … 512 j + 511 of plane indices[p];
    the output window writes the body's [4096, 512] block back as block (p, j) of the [65536, 1024] result.
  So what point (p, j) writes back is the restriction of `Spec.G` to rows 4096 p … 4096 p + 4095, columns 512 j … 512 j + 511
  (`Body.block_value`), the 32 blocks tile the result, and the result array ends holding G.
-/
import proofs.«428735_j67001489817758_1_alg».proof.Proof.KernelBlock
import proofs.«428735_j67001489817758_1_alg».proof.Proof.OkKernelIdeal
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-! ## The host's narrowing conversions are the identity over the extended reals -/

theorem V_v0 (c : Dev nD) (y : S4096x1024.Idx) : V m c main_v0 y = m ((c : Thread nD τ).loc main_arg0) y := by
  have e : V m c main_v0 = (truncf (F := Ideal) .bf16 (m ((c : Thread nD τ).loc main_arg0) : FVec Ideal S4096x1024 .f32) bitsLt_bf16_f32 : FVec Ideal S4096x1024 .bf16) := by
    dsimp only [Gen.V, Gen.hostOps0]; after_results
  rw [e]; rfl

theorem V_v1 (c : Dev nD) (y : S16x1024x1024.Idx) : V m c main_v1 y = m ((c : Thread nD τ).loc main_arg1) y := by
  have e : V m c main_v1 = (truncf (F := Ideal) .bf16 (m ((c : Thread nD τ).loc main_arg1) : FVec Ideal S16x1024x1024 .f32) bitsLt_bf16_f32 : FVec Ideal S16x1024x1024 .bf16) := by
    dsimp only [Gen.V, Gen.hostOps0]; after_results
  rw [e]; rfl

/-! ## The three block index maps at a grid point -/

/-- A grid coordinate, as a 32-bit word and back, is itself. -/
theorem word_val (n : Nat) (hn : n < 16) : (BitVec.ofNat 32 n).toNat = n := by
  simp [BitVec.toNat_ofNat]; omega

/-- The batch window never moves. -/
theorem batch_index (i : grid0.Coords) : cc0_transform_0 i = ![0, 0] := by
  funext a; fin_cases a <;> rfl

/-- The output window's block index is the grid point. -/
theorem out_index (i : grid0.Coords) : cc0_transform_2 i = ![(i 0).val, (i 1).val] := by
  have h0 : (i 0).val < 16 := (i 0).isLt
  have h1 : (i 1).val < 2 := (i 1).isLt
  funext a
  fin_cases a
  · exact word_val _ h0
  · exact word_val _ (by omega)

/-- The plane window's block index at (p, j) is (indices[p], j, 0), the index word read unsigned. -/
theorem plane_index (i : grid0.Coords) : cc0_transform_1 k0_off1_inb numel1_S1 (tbl m) i
    = ![(m (((0 : Dev nD) : Thread nD τ).loc main_arg2) (ix1 (⟨(i 0).val, (i 0).isLt⟩ : Fin 16))).toNat, (i 1).val, 0] := by
  have h0 : (i 0).val < 16 := (i 0).isLt
  have h1 : (i 1).val < 2 := (i 1).isLt
  funext a
  fin_cases a
  · show (V m (0 : Dev nD) main_arg2 _).toNat = (m (((0 : Dev nD) : Thread nD τ).loc main_arg2) _).toNat
    rw [V_main_arg2]
    congr 2
    funext b
    apply Fin.ext
    match b with
    | ⟨0, _⟩ =>
      show (Scalar.indexCast (BitVec.ofNat 32 (i 0).val)).toNat + 1 * (Shape.Idx.first (s := S1) _ (0 : Fin 1)).val = (i 0).val
      have hf := (Shape.Idx.first (s := S1) (numel1_S1.symm ▸ Nat.one_pos) (0 : Fin 1)).isLt
      have e1 : S1.size (0 : Fin 1) = 1 := rfl
      have ec : (Scalar.indexCast (BitVec.ofNat 32 (i 0).val)).toNat = (i 0).val := word_val _ h0
      omega
  · exact word_val _ (by omega)
  · rfl

/-! ## What a point writes back -/

/-- The result: `Spec.G` of the three argument arrays. -/
abbrev result (c : Dev nD) : Buf (Elt Ideal) ((c : Thread nD τ).loc main_v2) :=
  Cert.Spec.G (m ((c : Thread nD τ).loc main_arg0)) (m ((c : Thread nD τ).loc main_arg1)) (m ((c : Thread nD τ).loc main_arg2))

/-- POINT t WRITES BACK ITS BLOCK OF G, when every index word is below 16. -/
theorem flushed_eq (hr : ∀ x : S16.Idx, (m (((0 : Dev nD) : Thread nD τ).loc main_arg2) x).toNat < 16) (hO : Ok m) (c : Dev nD)
    (t : Fin (cfgM m hO).N) :
    (dats m hO 0 c).flushed 2 t = (((cfgM m hO).win 2).blk t).view.read (Elt Ideal) (result m c) := by
  obtain rfl : c = 0 := Subsingleton.elim _ _
  show ((cfgM m hO).win 2).cut (grid0.coords t) ((dats m hO 0 0).after 2 t) = _
  rw [after0_2]
  unfold outsAt0
  funext y
  refine (congrFun (Cert.KernelIdeal.Body.out_eq (F := Ideal) 0 (grid0.coords t) (ms0_0 m hO t) (hs0_0 m hO t) (ms0_1 m hO t) (hs0_1 m hO t) (ms0_2 m hO t) (hs0_2 m hO t) (iblk m hO 0 0 t) (iblk m hO 0 1 t) (tbl m 0)) _).trans ?_
  show _ = result m 0 ((((cfgM m hO).win 2).blk t).view.emb y)
  have hp : (grid0.coords t 0).val < 16 := (grid0.coords t 0).isLt
  have hj : (grid0.coords t 1).val < 2 := (grid0.coords t 1).isLt
  have e0 := batch_index (grid0.coords t)
  have e1 := plane_index m (grid0.coords t)
  have e2 := out_index (grid0.coords t)
  refine Cert.KernelIdeal.Body.block_value (m (((0 : Dev nD) : Thread nD τ).loc main_arg0)) (m (((0 : Dev nD) : Thread nD τ).loc main_arg1))
    (m (((0 : Dev nD) : Thread nD τ).loc main_arg2)) (iblk m hO 0 0 t) (iblk m hO 0 1 t)
    (⟨(grid0.coords t 0).val, hp⟩ : Fin 16) (⟨(grid0.coords t 1).val, hj⟩ : Fin 2) (hr _) ?_ ?_ _ _ ?_ ?_
  · intro b d
    show V m 0 main_v0 ((((cfgM m hO).win 0).blk t).view.emb (ix2 b d)) = _
    refine (V_v0 m 0 _).trans (congrArg (m (((0 : Dev nD) : Thread nD τ).loc main_arg0)) ?_)
    funext a; apply Fin.ext
    match a with
    | ⟨0, _⟩ => show cc0_transform_0 (grid0.coords t) 0 * 4096 + 1 * b.val = b.val; rw [e0]; simp
    | ⟨1, _⟩ => show cc0_transform_0 (grid0.coords t) 1 * 1024 + 1 * d.val = d.val; rw [e0]; simp
  · intro o d
    show V m 0 main_v1 ((((cfgM m hO).win 1).blk t).view.emb (ix3 (0 : Fin 1) o d)) = _
    refine (V_v1 m 0 _).trans (congrArg (m (((0 : Dev nD) : Thread nD τ).loc main_arg1)) ?_)
    funext a; apply Fin.ext
    match a with
    | ⟨0, _⟩ =>
      show cc0_transform_1 k0_off1_inb numel1_S1 (tbl m) (grid0.coords t) 0 * 1 + 1 * (0 : Fin 1).val = _
      rw [e1]; simp
    | ⟨1, _⟩ =>
      show cc0_transform_1 k0_off1_inb numel1_S1 (tbl m) (grid0.coords t) 1 * 512 + 1 * o.val = (grid0.coords t 1).val * 512 + o.val
      rw [e1]; simp
    | ⟨2, _⟩ =>
      show cc0_transform_1 k0_off1_inb numel1_S1 (tbl m) (grid0.coords t) 2 * 1024 + 1 * d.val = d.val
      rw [e1]; simp
  · show cc0_transform_2 (grid0.coords t) 0 * 4096 + 1 * (y ⟨0, Nat.zero_lt_two⟩).val = (grid0.coords t 0).val * 4096 + (y ⟨0, Nat.zero_lt_two⟩).val
    rw [e2]; simp
  · show cc0_transform_2 (grid0.coords t) 1 * 512 + 1 * (y ⟨1, Nat.one_lt_two⟩).val = (grid0.coords t 1).val * 512 + (y ⟨1, Nat.one_lt_two⟩).val
    rw [e2]; simp

/-! ## The blocks tile the result -/

/-- Every pair (p, j) is the coordinates of some point of the run. -/
theorem coords_onto : ∀ (p : Fin 16) (j : Fin 2), ∃ t : Fin grid0.N, (grid0.coords t 0).val = p.val ∧ (grid0.coords t 1).val = j.val := by
  decide +kernel

/-- THE RESULT ARRAY after the run is G: entry (r, o) lies in the block of the point (r / 4096, o / 512), every point
    writes its block back, and each block written back is G's (`flushed_eq`). -/
theorem final (hr : ∀ x : S16.Idx, (m (((0 : Dev nD) : Thread nD τ).loc main_arg2) x).toNat < 16) (hO : Ok m) (c : Dev nD) :
    (dats m hO 0 c).arrAt 2 (cfgM m hO).N = result m c :=
  (dats m hO 0 c).arrAt_eq_of_cover 2 (result m c) (fun t _ => flushed_eq m hr hO c t) fun (z : S65536x1024.Idx) => by
    have hz0 : (z 0).val < 65536 := (z 0).isLt
    have hz1 : (z 1).val < 1024 := (z 1).isLt
    obtain ⟨t, ht0, ht1⟩ := coords_onto (⟨(z 0).val / 4096, by omega⟩ : Fin 16) (⟨(z 1).val / 512, by omega⟩ : Fin 2)
    have e2 := out_index (grid0.coords t)
    refine ⟨t, flush0_2 (adm m hO) t, ?_⟩
    show z ∈ ((View.whole main_v2).slice (((cfgM m hO).win 2).rect t)).set
    refine (congrArg (fun S => z ∈ S) (View.set_slice_whole main_v2 (((cfgM m hO).win 2).rect t))).mpr ?_
    refine Rect.mem_set_unit.2 ?_
    intro a
    match a with
    | ⟨0, _⟩ =>
      show cc0_transform_2 (grid0.coords t) 0 * 4096 ≤ (z 0).val ∧ (z 0).val < cc0_transform_2 (grid0.coords t) 0 * 4096 + 4096
      rw [e2]
      show (grid0.coords t 0).val * 4096 ≤ (z 0).val ∧ (z 0).val < (grid0.coords t 0).val * 4096 + 4096
      rw [ht0]
      show (z 0).val / 4096 * 4096 ≤ (z 0).val ∧ (z 0).val < (z 0).val / 4096 * 4096 + 4096
      omega
    | ⟨1, _⟩ =>
      show cc0_transform_2 (grid0.coords t) 1 * 512 ≤ (z 1).val ∧ (z 1).val < cc0_transform_2 (grid0.coords t) 1 * 512 + 512
      rw [e2]
      show (grid0.coords t 1).val * 512 ≤ (z 1).val ∧ (z 1).val < (grid0.coords t 1).val * 512 + 512
      rw [ht1]
      show (z 1).val / 512 * 512 ≤ (z 1).val ∧ (z 1).val < (z 1).val / 512 * 512 + 512
      omega

/-! ## The run, read -/

/-- Every weakly fair execution of the program ends with the result array at G of the arguments and the arguments
    unchanged, when every index word is below 16. -/
theorem run (hr : ∀ x : S16.Idx, (m (((0 : Dev nD) : Thread nD τ).loc main_arg2) x).toNat < 16) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO : Ok m := Cert.KernelIdeal.OkOfPre.ok_of_range m hr
  (θ_run defs _ _).mono (fun _ h c => ⟨((h c).1 2).trans (final m hr hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.KernelIdeal.KValue

end
-- ==== Proof.lean ====
/-
  A permutation-matrix product with its row groups reordered by an index vector: the kernel and its reference compute
  the same [65536, 1024] array over the extended reals.

  Inputs: a batch x [4096, 1024], sixteen square planes T [16, 1024, 1024], sixteen integer words indices [16].
  Both programs produce, for each group p < 16, the product of the batch with the transpose of ONE plane, and stack the
  sixteen [4096, 1024] products along the rows; the plane of group p is the one the p-th index word names:
      out (4096 p + b, o) = ∑ d, x (b, d) · T (indices[p], o, d)          (`Spec.G`).
  The kernel reaches it block by block on a 16 × 2 grid: the index word selects, through the block index of its second
  operand, which plane's half is staged at point (p, j), and the body stores one [4096, 512] block of products
  (`KValue.run`: each point writes back its block of G, the blocks tile the result). The reference forms all sixteen
  products T · xᵀ at once, swaps the last two axes, gathers the planes by the index words (negative words wrapped,
  then clamped) and reads the stack as one matrix (`RefValue.ref_eq`). The two sums differ only in the order of the two
  factors of each product, and multiplication of extended reals is commutative: no finiteness is used.

  The precondition asks, beside finite float inputs, that every index word lie in [0, 16): the range of the axis it
  indexes. It is what places the kernel's staged plane inside T (the frames' side condition, `OkOfPre.ok_of_pre`), and
  under it the reference's wrap and clamp leave the word unchanged.
-/
import proofs.«428735_j67001489817758_1_alg».proof.Defs
import proofs.«428735_j67001489817758_1_alg».proof.Proof.Gen.Kernel
import proofs.«428735_j67001489817758_1_alg».proof.Proof.Gen.Kernel.Skeleton
import proofs.«428735_j67001489817758_1_alg».proof.Proof.Gen.Kernel.Launch
import proofs.«428735_j67001489817758_1_alg».proof.Proof.Gen.Kernel.Points
import proofs.«428735_j67001489817758_1_alg».proof.Proof.Gen.Kernel.Frame
import proofs.«428735_j67001489817758_1_alg».proof.Proof.Gen.KernelIdeal
import proofs.«428735_j67001489817758_1_alg».proof.Proof.Gen.KernelIdeal.Skeleton
import proofs.«428735_j67001489817758_1_alg».proof.Proof.Gen.KernelIdeal.Launch
import proofs.«428735_j67001489817758_1_alg».proof.Proof.Gen.KernelIdeal.Points
import proofs.«428735_j67001489817758_1_alg».proof.Proof.Gen.KernelIdeal.Frame
import proofs.«428735_j67001489817758_1_alg».proof.Proof.Gen.ReferenceIdeal
import proofs.«428735_j67001489817758_1_alg».proof.Proof.Gen.ReferenceIdeal.Run
import proofs.«428735_j67001489817758_1_alg».proof.Proof.Gen.ReferenceIdeal.Read
import proofs.«428735_j67001489817758_1_alg».proof.Proof.Gen.Pre_finite_inputs
import proofs.«428735_j67001489817758_1_alg».proof.Proof.OkKernel
import proofs.«428735_j67001489817758_1_alg».proof.Proof.OkKernelIdeal
import proofs.«428735_j67001489817758_1_alg».proof.Proof.RefValue
import proofs.«428735_j67001489817758_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: the staged plane is inside T under the precondition. -/
theorem frame_k : Cert.frame_Kernel := fun m ρ h =>
  Cert.Kernel.Gen.frame m ρ (Cert.Kernel.OkOfPre.ok_of_pre m h)

/-- The same for the kernel read over the extended reals. -/
theorem frame_ki : Cert.frame_KernelIdeal := fun m ρ h =>
  Cert.KernelIdeal.Gen.frame m ρ (Cert.KernelIdeal.OkOfPre.ok_of_pre m h)

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at G of the arguments: the kernel's run read block by block, the reference's
    read operation by operation, from arguments that agree and whose index words the precondition puts below 16. -/
theorem algebraic : Cert.algebraic_KernelIdeal_ReferenceIdeal := by
  intro m ρ m' ρ' hpre hagree
  have hr : ∀ x : Cert.KernelIdeal.S16.Idx,
      (m (((0 : Dev Cert.KernelIdeal.nD) : Thread Cert.KernelIdeal.nD Cert.KernelIdeal.τ).loc Cert.KernelIdeal.main_arg2) x).toNat < 16 :=
    fun x => Cert.IndexRange.idx_lt _ _ _ (hpre 0) x
  refine ⟨fun c => Cert.KernelIdeal.KValue.result m c, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v9_eq, (hagree 0).1, (hagree 0).2.1, (hagree 0).2.2]
  exact Cert.ReferenceIdeal.RefValue.ref_eq _ _ _ hr

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
